-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x4096 : Shape := ⟨3, ![8, 8192, 4096]⟩
abbrev S8192x4096 : Shape := ⟨2, ![8192, 4096]⟩
abbrev S4096 : Shape := ⟨1, ![4096]⟩
abbrev S_ : Shape := ⟨0, ![]⟩

class Facts : Prop where
  bcast_S_S8x8192x4096 : S_.BroadcastsInDim S8x8192x4096 (![] : Fin 0 → Fin S8x8192x4096.rank)
  reducesTo_S8x8192x4096_S_d0_1_2 : S8x8192x4096.ReducesTo [0, 1, 2] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8x8192x4096 .f32) (main_arg1 : FVec F S8192x4096 .f32) (main_arg2 : FVec F S4096 .f32) : IVec S_ 1 :=
  let main_v0 : FVec F S8x8192x4096 .f32 := Host.absf main_arg0
  let main_cst : FVec F S_ .f32 := constant S_ .f32 0x7F800000#32
  let main_v1 : FVec F S8x8192x4096 .f32 := broadcastInDim S8x8192x4096 ![] bcast_S_S8x8192x4096 main_cst
  let main_v2 : IVec S8x8192x4096 1 := cmpf .olt main_v0 main_v1
  let main_c : IVec S_ 1 := constantI S_ 1 1#1
  let main_v3 : IVec S_ 1 := (fun x v => Host.reduce IntOp.andi x v reducesTo_S8x8192x4096_S_d0_1_2 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8x8192x4096 : Shape := ⟨3, ![8, 8192, 4096]⟩
abbrev S8192x4096 : Shape := ⟨2, ![8192, 4096]⟩
abbrev S4096 : Shape := ⟨1, ![4096]⟩
abbrev S8x64x4096 : Shape := ⟨3, ![8, 64, 4096]⟩
abbrev S64x4096 : Shape := ⟨2, ![64, 4096]⟩
abbrev S64 : Shape := ⟨1, ![64]⟩
abbrev S64x1 : Shape := ⟨2, ![64, 1]⟩
abbrev S1x4096 : Shape := ⟨2, ![1, 4096]⟩

abbrev nBuf : Space → Nat
  | .hbm => 5
  | .vmem => 9
  | .smem => 0
  | _ => 0

abbrev bufTy : (tb : Table) → Fin (tcTables nBuf tb) → BufTy
  | .hbm, ⟨0, _⟩ => ⟨S8x8192x4096, .f32⟩
  | .hbm, ⟨1, _⟩ => ⟨S8192x4096, .f32⟩
  | .hbm, ⟨2, _⟩ => ⟨S4096, .f32⟩
  | .hbm, ⟨3, _⟩ => ⟨S8192x4096, .f32⟩
  | .hbm, ⟨4, _⟩ => ⟨S8192x4096, .f32⟩
  | .local _ .vmem, ⟨0, _⟩ => ⟨S8x64x4096, .f32⟩
  | .local _ .vmem, ⟨1, _⟩ => ⟨S8x64x4096, .f32⟩
  | .local _ .vmem, ⟨2, _⟩ => ⟨S64x4096, .f32⟩
  | .local _ .vmem, ⟨3, _⟩ => ⟨S64x4096, .f32⟩
  | .local _ .vmem, ⟨4, _⟩ => ⟨S4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | _, _ => ⟨S8x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S8x64x4096_S8x64x4096_0_0_0 : ∀ a, (![0, 0, 0] : Fin 3 → Nat) a + S8x64x4096.size a ≤ S8x64x4096.size a
  h_S8x64x4096 : 0 < S8x64x4096.numel
  reduces_S8x64x4096_S64x4096 : S8x64x4096.Reduces [0] S64x4096
  inb_S64x4096_S64x4096_0_0 : ∀ a, (![0, 0] : Fin 2 → Nat) a + S64x4096.size a ≤ S64x4096.size a
  h_S64x4096 : 0 < S64x4096.numel
  reduces_S64x4096_S64 : S64x4096.Reduces [1] S64
  shapeCasts_S64_S64x1 : S64.ShapeCasts S64x1
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S64x4096 : S1x4096.Broadcasts S64x4096
  broadcasts_S64x1_S64x4096 : S64x1.Broadcasts S64x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x4096.size a ≤ S8x8192x4096.size a
  hwx0_0 : ∀ i : grid0.Coords, EltTy.bits .f32 = 32 ∨ (Rect.block (s := S8x8192x4096) S8x64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S8192x4096.size a
  hwx0_1 : ∀ i : grid0.Coords, EltTy.bits .f32 = 32 ∨ (Rect.block (s := S8192x4096) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S4096.size a
  hwx0_2 : ∀ i : grid0.Coords, EltTy.bits .f32 = 32 ∨ (Rect.block (s := S4096) S4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x4096.size a ≤ S8192x4096.size a
  hwx0_3 : ∀ i : grid0.Coords, EltTy.bits .f32 = 32 ∨ (Rect.block (s := S8192x4096) S64x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x4096.size a ≤ S8192x4096.size a
  hwx0_4 : ∀ i : grid0.Coords, EltTy.bits .f32 = 32 ∨ (Rect.block (s := S8192x4096) S64x4096.size (cc0_transform_4 i) (hinb0_4 i)).WholeWords (EltTy.packing .f32)

variable [Facts₀]

abbrev win0_0 : Pipeline.Window sig grid0 :=
  Pipeline.Window.ofSpec (Memref.whole main_arg0) S8x64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S64x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S64x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x8192x4096 : Shape := ⟨3, ![8, 8192, 4096]⟩
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8x8192x4096, .f32⟩
  | .hbm, ⟨1, _⟩ => ⟨S8192x4096, .f32⟩
  | .hbm, ⟨2, _⟩ => ⟨S4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x4096, .f32⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S8192x4096, .f32⟩
  | _, _ => ⟨S8x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  reducesTo_S8x8192x4096_S8192x4096_d0 : S8x8192x4096.ReducesTo [0] S8192x4096
  h_S_ : 0 < S_.numel
  reducesTo_S8192x4096_S8192_d1 : S8192x4096.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)

variable [Facts₀]

class Facts : Prop extends Facts₀ where

variable [Facts]
-- ==== Proof.RowNorm.lean ====
/-
  The arithmetic of "sum over the ranks, add the residual, RMS-normalise each row, scale by a weight", entry by
  entry over the extended reals, for arrays of `T` rows of 4096 entries held by 8 ranks.

  For the ranks' entries x[k, p, q] (k < 8), a residual r[p, q] and a weight g[q]:
      s[p, q]   = (Σ_k x[k, p, q]) + r[p, q]
      out[p, q] = (s[p, q] · rsqrt((Σ_h s[p, h]²) / 4096 + ε)) · g[q]
  The divisor 4096 and ε are kept as the two float words both programs carry; nothing here evaluates them.

  Row p of `s` and of `out` is a function of row p of `x` and `r` alone (`summed_congr`, `invRms_congr`,
  `normed_congr`): that is what lets a tile of 64 rows be normalised on its own and still agree with the
  normalisation of the whole 8192-row array.  No law of the extended reals beyond congruence is used, so nothing
  here asks the entries to be finite.
-/
import Idealize.ShloMosaic.PureOps.Ideal
import Idealize.ShloMosaic.Lib.ValueIdx

noncomputable section

open scoped BigOperators

namespace Cert.RowNorm

open Idealize.ShloMosaic Idealize.ShloMosaic.ValueIdx

/-- `s[p, q]`: the eight ranks' entries at `(p, q)` added up, plus the residual's entry there. -/
def summed {T : Nat} (x : (⟨3, ![8, T, 4096]⟩ : Shape).Idx → EReal) (r : (⟨2, ![T, 4096]⟩ : Shape).Idx → EReal)
    (p : Fin T) (q : Fin 4096) : EReal :=
  (∑ k : Fin 8, x (ix3 k p q)) + r (ix2 p q)

/-- Row `p`'s scale: the reciprocal square root of the mean of the row's squares plus ε. -/
def invRms {T : Nat} (x : (⟨3, ![8, T, 4096]⟩ : Shape).Idx → EReal) (r : (⟨2, ![T, 4096]⟩ : Shape).Idx → EReal)
    (p : Fin T) : EReal :=
  Ideal.rsqrt (Ideal.div (∑ h : Fin 4096, summed x r p h * summed x r p h) (Ideal.ofBits .f32 0x45800000#32)
    + Ideal.ofBits .f32 0x358637BD#32)

/-- `out[p, q]`: the summed entry times its row's scale, times the weight of column `q`. -/
def normed {T : Nat} (x : (⟨3, ![8, T, 4096]⟩ : Shape).Idx → EReal) (r : (⟨2, ![T, 4096]⟩ : Shape).Idx → EReal)
    (g : (⟨1, ![4096]⟩ : Shape).Idx → EReal) (p : Fin T) (q : Fin 4096) : EReal :=
  summed x r p q * invRms x r p * g (ix1 q)

/-- The summed array, as a function of the array index. -/
def summedArr {T : Nat} (x : (⟨3, ![8, T, 4096]⟩ : Shape).Idx → EReal) (r : (⟨2, ![T, 4096]⟩ : Shape).Idx → EReal) :
    (⟨2, ![T, 4096]⟩ : Shape).Idx → EReal :=
  fun i => summed x r ⟨(i 0).val, (i 0).isLt⟩ ⟨(i 1).val, (i 1).isLt⟩

/-- The normalised array, as a function of the array index. -/
def normedArr {T : Nat} (x : (⟨3, ![8, T, 4096]⟩ : Shape).Idx → EReal) (r : (⟨2, ![T, 4096]⟩ : Shape).Idx → EReal)
    (g : (⟨1, ![4096]⟩ : Shape).Idx → EReal) : (⟨2, ![T, 4096]⟩ : Shape).Idx → EReal :=
  fun i => normed x r g ⟨(i 0).val, (i 0).isLt⟩ ⟨(i 1).val, (i 1).isLt⟩

theorem summedArr_ix2 {T : Nat} (x : (⟨3, ![8, T, 4096]⟩ : Shape).Idx → EReal) (r : (⟨2, ![T, 4096]⟩ : Shape).Idx → EReal)
    (p : Fin T) (q : Fin 4096) : summedArr x r (ix2 p q) = summed x r p q := rfl

theorem normedArr_ix2 {T : Nat} (x : (⟨3, ![8, T, 4096]⟩ : Shape).Idx → EReal) (r : (⟨2, ![T, 4096]⟩ : Shape).Idx → EReal)
    (g : (⟨1, ![4096]⟩ : Shape).Idx → EReal) (p : Fin T) (q : Fin 4096) : normedArr x r g (ix2 p q) = normed x r g p q := rfl

section RowLocal

variable {T T' : Nat}
  {x : (⟨3, ![8, T, 4096]⟩ : Shape).Idx → EReal} {x' : (⟨3, ![8, T', 4096]⟩ : Shape).Idx → EReal}
  {r : (⟨2, ![T, 4096]⟩ : Shape).Idx → EReal} {r' : (⟨2, ![T', 4096]⟩ : Shape).Idx → EReal}
  {p : Fin T} {p' : Fin T'}

/-- Two pairs of arrays that agree on one row (row `p` of the first, row `p'` of the second) have the same
    summed entries along it. -/
theorem summed_congr (hx : ∀ (k : Fin 8) (q : Fin 4096), x (ix3 k p q) = x' (ix3 k p' q))
    (hr : ∀ q : Fin 4096, r (ix2 p q) = r' (ix2 p' q)) (q : Fin 4096) :
    summed x r p q = summed x' r' p' q := by
  unfold summed
  rw [hr q]
  exact congrArg (· + r' (ix2 p' q)) (Finset.sum_congr rfl fun k _ => hx k q)

/-- … and so the same scale for that row: the mean of squares runs over the row only. -/
theorem invRms_congr (hx : ∀ (k : Fin 8) (q : Fin 4096), x (ix3 k p q) = x' (ix3 k p' q))
    (hr : ∀ q : Fin 4096, r (ix2 p q) = r' (ix2 p' q)) :
    invRms x r p = invRms x' r' p' := by
  unfold invRms
  rw [Finset.sum_congr rfl fun h _ => by rw [summed_congr hx hr h]]

/-- … and, with weights that agree column by column, the same normalised entries along it. -/
theorem normed_congr {g g' : (⟨1, ![4096]⟩ : Shape).Idx → EReal}
    (hx : ∀ (k : Fin 8) (q : Fin 4096), x (ix3 k p q) = x' (ix3 k p' q))
    (hr : ∀ q : Fin 4096, r (ix2 p q) = r' (ix2 p' q)) (hg : ∀ q : Fin 4096, g (ix1 q) = g' (ix1 q)) (q : Fin 4096) :
    normed x r g p q = normed x' r' g' p' q := by
  unfold normed
  rw [summed_congr hx hr q, invRms_congr hx hr, hg q]

end RowLocal

end Cert.RowNorm

end
-- ==== Proof.RefRows.lean ====
/-
  The reference program's two results, read entry by entry at the ideal instance, are the row arithmetic of
  `Cert.RowNorm` over the whole arrays: its first stage adds the eight ranks' entries (from the zero word, which
  is the real 0) and the residual's, giving `summed`; the later stages square, add along the row, divide by the
  word 4096.0, add the word ε, take the reciprocal square root, spread it back along the row and multiply by
  the summed entry and by the weight of the column, giving `normed`.  The host's quotient and reciprocal square
  root are, over the extended reals, the same functions the row arithmetic is written with.
-/
import proofs.«101307_j4492535792389_1_alg».proof.Proof.Gen.ReferenceIdeal.Read
import proofs.«101307_j4492535792389_1_alg».proof.Proof.RowNorm

noncomputable section

open scoped BigOperators

namespace Cert.RefRows

open Idealize.ShloMosaic Idealize.ShloMosaic.ValueIdx Cert.ReferenceIdeal Cert.ReferenceIdeal.Read Cert.RowNorm

/-- The reference's summed stage at `(p, q)`: the ranks' entries there added from zero, plus the residual's. -/
theorem summed_at (x0 : S8x8192x4096.Idx → EReal) (x1 : S8192x4096.Idx → EReal) (p : Fin 8192) (q : Fin 4096) :
    val_main_v1 (F := Ideal) x0 x1 (ix2 p q) = summed x0 x1 p q := by
  have hi : ∀ k : Fin 8, idx_main_v0 (ix2 p q) k = ix3 k p q := fun k =>
    funext fun a => Fin.ext (by match a with | ⟨0, _⟩ => rfl | ⟨1, _⟩ => rfl | ⟨2, _⟩ => rfl)
  rw [val_main_v1_apply, val_main_v0_apply, val_main_cst_apply]
  simp only [hi, Ideal.addf_def, Ideal.ofBits_def, Ideal.ofBits_zero_f32, zero_add]
  rfl

/-- The reference's first result is the summed array. -/
theorem summed_eq (x0 : S8x8192x4096.Idx → EReal) (x1 : S8192x4096.Idx → EReal) :
    val_main_v1 (F := Ideal) x0 x1 = summedArr x0 x1 := by
  funext i
  obtain ⟨p, q, rfl⟩ : ∃ (p : Fin 8192) (q : Fin 4096), i = ix2 p q := ⟨i 0, i 1, eq_ix2 i⟩
  rw [summed_at, summedArr_ix2]

/-- The reference's row scale at row `p`. -/
theorem scale_at (x0 : S8x8192x4096.Idx → EReal) (x1 : S8192x4096.Idx → EReal) (p : Fin 8192) :
    val_main_v9 (F := Ideal) x0 x1 (ix2 p (0 : Fin 1)) = invRms x0 x1 p := by
  have h4 : idx_main_v4 (ix2 p (0 : Fin 1)) = ix1 p := funext fun a => Fin.ext (by match a with | ⟨0, _⟩ => rfl)
  have h3 : ∀ k : Fin 4096, idx_main_v3 (ix1 p) k = ix2 p k := fun k =>
    funext fun a => Fin.ext (by match a with | ⟨0, _⟩ => rfl | ⟨1, _⟩ => rfl)
  rw [val_main_v9_apply, val_main_v8_apply, val_main_v6_apply, val_main_v7_apply, val_main_cst_2_apply,
    val_main_v5_apply, val_main_cst_1_apply, val_main_v4_apply, h4, val_main_v3_apply, val_main_cst_0_apply]
  simp only [h3, val_main_v2_apply, summed_at, Ideal.addf_def, Ideal.mulf_def, Ideal.hostDivf_def,
    Ideal.hostUnary_rsqrt_def, Ideal.ofBits_def, Ideal.ofBits_zero_f32, zero_add]
  rfl

/-- The reference's normalised stage at `(p, q)`. -/
theorem normed_at (x0 : S8x8192x4096.Idx → EReal) (x1 : S8192x4096.Idx → EReal) (x2 : S4096.Idx → EReal)
    (p : Fin 8192) (q : Fin 4096) :
    val_main_v14 (F := Ideal) x0 x1 x2 (ix2 p q) = normed x0 x1 x2 p q := by
  have h10 : idx_main_v10 (ix2 p q) = ix2 p (0 : Fin 1) :=
    funext fun a => Fin.ext (by match a with | ⟨0, _⟩ => rfl | ⟨1, _⟩ => rfl)
  have h13 : idx_main_v13 (ix2 p q) = ix2 (0 : Fin 1) q :=
    funext fun a => Fin.ext (by match a with | ⟨0, _⟩ => rfl | ⟨1, _⟩ => rfl)
  have h12 : idx_main_v12 (ix2 (0 : Fin 1) q) = ix1 q := funext fun a => Fin.ext (by match a with | ⟨0, _⟩ => rfl)
  rw [val_main_v14_apply, val_main_v11_apply, val_main_v10_apply, h10, scale_at, summed_at,
    val_main_v13_apply, h13, val_main_v12_apply, h12]
  simp only [Ideal.mulf_def]
  rfl

/-- The reference's second result is the normalised array. -/
theorem normed_eq (x0 : S8x8192x4096.Idx → EReal) (x1 : S8192x4096.Idx → EReal) (x2 : S4096.Idx → EReal) :
    val_main_v14 (F := Ideal) x0 x1 x2 = normedArr x0 x1 x2 := by
  funext i
  obtain ⟨p, q, rfl⟩ : ∃ (p : Fin 8192) (q : Fin 4096), i = ix2 p q := ⟨i 0, i 1, eq_ix2 i⟩
  rw [normed_at, normedArr_ix2]

end Cert.RefRows

end
-- ==== Proof.TileRows.lean ====
/-
  One tile of the kernel, read entry by entry at the ideal instance.  A grid point loads a tile of 64 rows: the
  eight ranks' [8, 64, 4096] block `P0`, the residual's [64, 4096] block `P1` and the whole weight `P2`; it
  stores two [64, 4096] blocks.  What the stores leave (the generated `E4` and `E3` of the value leg: the body's
  operations over the loads, the two reductions kept whole) is, at tile entry `(a, b)`, the row arithmetic of
  `Cert.RowNorm` over the tile's own 64 rows: the reduction over the rank axis is the sum of the eight ranks'
  entries, and the reduction along a row is the sum of that row's 4096 squares.
-/
import proofs.«101307_j4492535792389_1_alg».proof.Proof.Gen.KernelIdeal.Value
import proofs.«101307_j4492535792389_1_alg».proof.Proof.RowNorm
import Idealize.ShloMosaic.PureOps.Ideal.Laws
import Idealize.ShloMosaic.Lib.ValueIdx

noncomputable section

open scoped BigOperators

namespace Cert.TileRows

open Idealize.ShloMosaic Idealize.ShloMosaic.ValueIdx Cert.KernelIdeal Cert.KernelIdeal.Gen Cert.RowNorm

/-- The reduction over the rank axis, at tile entry `(a, b)`: the eight ranks' entries there, added. -/
theorem rank_sum (P0 : FVec Ideal S8x64x4096 .f32) (h : S8x64x4096.Reduces [0] S64x4096) (hφ : FKind.Formats .f32)
    (hacc : (0x00000000#32 : BitVec 32) = 0x00000000#32) (a : Fin 64) (b : Fin 4096) :
    multiReduction .add [0] S64x4096 P0 0x00000000#32 h hφ hacc (ix2 a b) = ∑ k : Fin 8, P0 (ix3 k a b) := by
  refine (Ideal.multiReduction_add_single P0 0x00000000#32 h hφ hacc (ix2 a b)).trans ?_
  refine Finset.sum_congr rfl fun k _ => ?_
  exact congrArg P0 (funext fun d => Fin.ext (by match d with | ⟨0, _⟩ => rfl | ⟨1, _⟩ => rfl | ⟨2, _⟩ => rfl))

/-- The reduction along a row, at row `a`: the row's 4096 entries, added. -/
theorem row_sum (v : FVec Ideal S64x4096 .f32) (h : S64x4096.Reduces [1] S64) (hφ : FKind.Formats .f32)
    (hacc : (0x00000000#32 : BitVec 32) = 0x00000000#32) (a : Fin 64) :
    multiReduction .add [1] S64 v 0x00000000#32 h hφ hacc (ix1 a) = ∑ k : Fin 4096, v (ix2 a k) := by
  refine (Ideal.multiReduction_add_single v 0x00000000#32 h hφ hacc (ix1 a)).trans ?_
  refine Finset.sum_congr rfl fun k _ => ?_
  exact congrArg v (funext fun d => Fin.ext (by match d with | ⟨0, _⟩ => rfl | ⟨1, _⟩ => rfl))

/-- The first stored block (the summed tile) at `(a, b)` is the tile's own `summed`. -/
theorem summed_at (P0 : Vec Ideal S8x64x4096 .f32) (P1 : Vec Ideal S64x4096 .f32) (a : Fin 64) (b : Fin 4096) :
    Value.E4 P0 P1 (ix2 a b) = summed P0 P1 a b := by
  have i0 : Value.ix4_0 (ix2 a b) = ix2 a b :=
    funext fun d => Fin.ext (by match d with | ⟨0, _⟩ => rfl | ⟨1, _⟩ => rfl)
  have i1 : Value.ix4_1 (ix2 a b) = ix2 a b :=
    funext fun d => Fin.ext (by match d with | ⟨0, _⟩ => rfl | ⟨1, _⟩ => rfl)
  dsimp only [Value.E4]
  rw [i0, i1, rank_sum]
  rfl

/-- The summed tile as a vector, at `(a, k)`. -/
theorem summed_vec_at (P0 : Vec Ideal S8x64x4096 .f32) (P1 : Vec Ideal S64x4096 .f32)
    (h : S8x64x4096.Reduces [0] S64x4096) (hφ : FKind.Formats .f32)
    (hacc : (0x00000000#32 : BitVec 32) = 0x00000000#32) (a : Fin 64) (k : Fin 4096) :
    (addf (multiReduction .add [0] S64x4096 P0 0x00000000#32 h hφ hacc) P1 :
      FVec Ideal S64x4096 .f32) (ix2 a k) = summed P0 P1 a k := by
  rw [addf_apply, rank_sum]
  rfl

/-- The reduction along row `a` of the squared summed tile: the sum of the row's 4096 squared summed entries. -/
theorem sq_row_sum (P0 : Vec Ideal S8x64x4096 .f32) (P1 : Vec Ideal S64x4096 .f32)
    (h0 : S8x64x4096.Reduces [0] S64x4096) (h1 : S64x4096.Reduces [1] S64) (hφ : FKind.Formats .f32)
    (hacc : (0x00000000#32 : BitVec 32) = 0x00000000#32) (a : Fin 64) :
    multiReduction (F := Ideal) .add [1] S64
        (mulf (addf (multiReduction (F := Ideal) .add [0] S64x4096 P0 0x00000000#32 h0 hφ hacc) P1)
          (addf (multiReduction (F := Ideal) .add [0] S64x4096 P0 0x00000000#32 h0 hφ hacc) P1))
        0x00000000#32 h1 hφ hacc (ix1 a)
      = ∑ k : Fin 4096, summed P0 P1 a k * summed P0 P1 a k := by
  rw [row_sum]
  refine Finset.sum_congr rfl fun k _ => ?_
  rw [mulf_apply, summed_vec_at]

/-- The second stored block (the normalised tile) at `(a, b)` is the tile's own `normed`. -/
theorem normed_at (P0 : Vec Ideal S8x64x4096 .f32) (P1 : Vec Ideal S64x4096 .f32) (P2 : Vec Ideal S4096 .f32)
    (a : Fin 64) (b : Fin 4096) :
    Value.E3 P0 P1 P2 (ix2 a b) = normed P0 P1 P2 a b := by
  have i0 : Value.ix3_0 (ix2 a b) = ix2 a b :=
    funext fun d => Fin.ext (by match d with | ⟨0, _⟩ => rfl | ⟨1, _⟩ => rfl)
  have i1 : Value.ix3_1 (ix2 a b) = ix2 a b :=
    funext fun d => Fin.ext (by match d with | ⟨0, _⟩ => rfl | ⟨1, _⟩ => rfl)
  have i2 : Value.ix3_2 (ix2 a b) = ix1 a := funext fun d => Fin.ext (by match d with | ⟨0, _⟩ => rfl)
  have i3 : Value.ix3_3 (ix2 a b) = ix1 b := funext fun d => Fin.ext (by match d with | ⟨0, _⟩ => rfl)
  dsimp only [Value.E3]
  rw [i0, i1, i2, i3, sq_row_sum, rank_sum]
  simp only [Ideal.mulf_def, Ideal.addf_def, Ideal.divf_def, Ideal.rsqrt_def, Ideal.ofBits_def]
  rfl

end Cert.TileRows

end
-- ==== Proof.KernelRows.lean ====
/-
  From tiles to arrays.  The grid has 128 points; point `t` loads rows 64·t … 64·t + 63 of the eight ranks' array
  and of the residual (all 4096 columns) and the whole weight, and writes the same rows of the two result arrays
  (`idx_facts`: the printed index maps, decided over the grid).  So entry `(a, q)` of a tile is entry
  `(64·t + a, q)` of its array (`xblk_at`, `rblk_at`, `gblk_at`), and, a row's arithmetic being a function of
  that row alone (`Cert.RowNorm`'s congruences), what point `t` writes back is block `t` of the summed and of
  the normalised ARRAY (`flushed4_eq`, `flushed3_eq`).  Every row lies in the block of point `row / 64`
  (`cover3`, `cover4`), so after the run the two result arrays hold the summed and the normalised array
  whole (`final4`, `final3`, `run`).
-/
import proofs.«101307_j4492535792389_1_alg».proof.Proof.TileRows
import Idealize.ShloMosaic.Lib.Pipeline.Value

noncomputable section

open scoped BigOperators

namespace Cert.KernelRows

open Idealize.ShloMosaic Idealize.ShloMosaic.TcCoe Idealize.SL.Sem Idealize.ShloMosaic.ValueIdx
open Idealize.ShloMosaic.Pipeline (Dat)
open Cert.KernelIdeal Cert.KernelIdeal.Gen Cert.RowNorm

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The three argument arrays as the region finds them, and the tiles point `t` loads of them. -/
abbrev xarr (c : Dev nD) : Vec Ideal S8x8192x4096 .f32 := V m c main_arg0
abbrev rarr (c : Dev nD) : Vec Ideal S8192x4096 .f32 := V m c main_arg1
abbrev garr (c : Dev nD) : Vec Ideal S4096 .f32 := V m c main_arg2
abbrev xblk (c : Dev nD) (t : Fin cfg0.N) : Vec Ideal S8x64x4096 .f32 := iblk m c 0 t
abbrev rblk (c : Dev nD) (t : Fin cfg0.N) : Vec Ideal S64x4096 .f32 := iblk m c 1 t
abbrev gblk (c : Dev nD) (t : Fin cfg0.N) : Vec Ideal S4096 .f32 := iblk m c 2 t

/-- The printed index maps over the 128 grid points: on the row axis every tiled window is at block `t`, on every
    other axis at block 0. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Entry `(k, a, q)` of the ranks' tile at point `t` is entry `(k, 64·t + a, q)` of the ranks' array. -/
theorem xblk_at (c : Dev nD) (t : Fin cfg0.N) (k : Fin 8) (a : Fin 64) (q : Fin 4096) (p : Fin 8192)
    (hp : p.val = 64 * t.val + a.val) : xblk m c t (ix3 k a q) = xarr m c (ix3 k p q) := by
  obtain ⟨e0, e1, e2, -⟩ := idx_facts t
  show V m c main_arg0 (((cfg0.win 0).blk t).view.emb (ix3 k a q)) = V m c main_arg0 (ix3 k p q)
  refine congrArg (V m c main_arg0) (funext fun d => Fin.ext ?_)
  match d with
  | ⟨0, _⟩ => show win0_0.index t (0 : Fin 3) * 8 + 1 * k.val = k.val; omega
  | ⟨1, _⟩ => show win0_0.index t (1 : Fin 3) * 64 + 1 * a.val = p.val; omega
  | ⟨2, _⟩ => show win0_0.index t (2 : Fin 3) * 4096 + 1 * q.val = q.val; omega

/-- Entry `(a, q)` of the residual's tile at point `t` is entry `(64·t + a, q)` of the residual. -/
theorem rblk_at (c : Dev nD) (t : Fin cfg0.N) (a : Fin 64) (q : Fin 4096) (p : Fin 8192)
    (hp : p.val = 64 * t.val + a.val) : rblk m c t (ix2 a q) = rarr m c (ix2 p q) := by
  obtain ⟨-, -, -, e3, e4, -⟩ := idx_facts t
  show V m c main_arg1 (((cfg0.win 1).blk t).view.emb (ix2 a q)) = V m c main_arg1 (ix2 p q)
  refine congrArg (V m c main_arg1) (funext fun d => Fin.ext ?_)
  match d with
  | ⟨0, _⟩ => show win0_1.index t (0 : Fin 2) * 64 + 1 * a.val = p.val; omega
  | ⟨1, _⟩ => show win0_1.index t (1 : Fin 2) * 4096 + 1 * q.val = q.val; omega

/-- The weight's tile is the weight. -/
theorem gblk_at (c : Dev nD) (t : Fin cfg0.N) (q : Fin 4096) : gblk m c t (ix1 q) = garr m c (ix1 q) := by
  obtain ⟨-, -, -, -, -, e5, -⟩ := idx_facts t
  show V m c main_arg2 (((cfg0.win 2).blk t).view.emb (ix1 q)) = V m c main_arg2 (ix1 q)
  refine congrArg (V m c main_arg2) (funext fun d => Fin.ext ?_)
  match d with
  | ⟨0, _⟩ => show win0_2.index t (0 : Fin 1) * 4096 + 1 * q.val = q.val; omega

/-- WHAT POINT `t` WRITES BACK to the summed result is block `t` of the summed array. -/
theorem flushed4_eq (c : Dev nD) (t : Fin cfg0.N) :
    (dats m 0 c).flushed 4 t = ((cfg0.win 4).blk t).view.read (Elt Ideal) (summedArr (xarr m c) (rarr m c)) := by
  obtain ⟨-, -, -, -, -, -, -, -, e8, e9⟩ := idx_facts t
  have hN : t.val < 128 := lt_of_lt_of_eq t.isLt N_0
  rw [Value.flushed4]
  unfold out0_4
  rw [View.ld_unit_zero (S := S8x64x4096) hz3, View.ld_unit_zero (S := S64x4096) hz2]
  funext j
  obtain ⟨a, b, rfl⟩ : ∃ (a : Fin 64) (b : Fin 4096), j = ix2 a b :=
    ⟨⟨(j 0).val, (j 0).isLt⟩, ⟨(j 1).val, (j 1).isLt⟩,
      funext fun d => Fin.ext (by match d with | ⟨0, _⟩ => rfl | ⟨1, _⟩ => rfl)⟩
  have he : ((cfg0.win 4).blk t).view.emb (ix2 a b) = ix2 (⟨64 * t.val + a.val, by omega⟩ : Fin 8192) b :=
    funext fun d => Fin.ext (by
      match d with
      | ⟨0, _⟩ => show win0_4.index t (0 : Fin 2) * 64 + 1 * a.val = 64 * t.val + a.val; omega
      | ⟨1, _⟩ => show win0_4.index t (1 : Fin 2) * 4096 + 1 * b.val = b.val; omega)
  show (View.canon [(⟨r0_1, k0_pay1 (xblk m c t) (rblk m c t)⟩ : View.Piece (Elt Ideal) S64x4096 .f32)]
      : Vec Ideal S64x4096 .f32) (ix2 a b)
    = summedArr (xarr m c) (rarr m c) (((cfg0.win 4).blk t).view.emb (ix2 a b))
  rw [he, summedArr_ix2, Value.canon4_eq (xblk m c t) (rblk m c t) (ix2 a b), TileRows.summed_at]
  exact summed_congr (fun k q => xblk_at m c t k a q _ rfl) (fun q => rblk_at m c t a q _ rfl) b

/-- WHAT POINT `t` WRITES BACK to the normalised result is block `t` of the normalised array. -/
theorem flushed3_eq (c : Dev nD) (t : Fin cfg0.N) :
    (dats m 0 c).flushed 3 t
      = ((cfg0.win 3).blk t).view.read (Elt Ideal) (normedArr (xarr m c) (rarr m c) (garr m c)) := by
  obtain ⟨-, -, -, -, -, -, e6, e7, -⟩ := idx_facts t
  have hN : t.val < 128 := lt_of_lt_of_eq t.isLt N_0
  rw [Value.flushed3]
  unfold out0_3
  rw [View.ld_unit_zero (S := S8x64x4096) hz3, View.ld_unit_zero (S := S64x4096) hz2,
    View.ld_unit_zero (S := S4096) hz1]
  funext j
  obtain ⟨a, b, rfl⟩ : ∃ (a : Fin 64) (b : Fin 4096), j = ix2 a b :=
    ⟨⟨(j 0).val, (j 0).isLt⟩, ⟨(j 1).val, (j 1).isLt⟩,
      funext fun d => Fin.ext (by match d with | ⟨0, _⟩ => rfl | ⟨1, _⟩ => rfl)⟩
  have he : ((cfg0.win 3).blk t).view.emb (ix2 a b) = ix2 (⟨64 * t.val + a.val, by omega⟩ : Fin 8192) b :=
    funext fun d => Fin.ext (by
      match d with
      | ⟨0, _⟩ => show win0_3.index t (0 : Fin 2) * 64 + 1 * a.val = 64 * t.val + a.val; omega
      | ⟨1, _⟩ => show win0_3.index t (1 : Fin 2) * 4096 + 1 * b.val = b.val; omega)
  show (View.canon [(⟨r0_1, k0_pay2 (xblk m c t) (rblk m c t) (gblk m c t)⟩ : View.Piece (Elt Ideal) S64x4096 .f32)]
      : Vec Ideal S64x4096 .f32) (ix2 a b)
    = normedArr (xarr m c) (rarr m c) (garr m c) (((cfg0.win 3).blk t).view.emb (ix2 a b))
  rw [he, normedArr_ix2, Value.canon3_eq (xblk m c t) (rblk m c t) (gblk m c t) (ix2 a b), TileRows.normed_at]
  exact normed_congr (fun k q => xblk_at m c t k a q _ rfl) (fun q => rblk_at m c t a q _ rfl)
    (fun q => gblk_at m c t q) b

/-- An index of a result array is in point `t`'s block iff each coordinate is in the block's range on its axis. -/
theorem mem_blk3 (t : Fin cfg0.N) (i : S8192x4096.Idx) :
    i ∈ ((cfg0.win 3).blk t).view.set ↔ ∀ a : Fin 2, win0_3.index t a * S64x4096.size a ≤ (i a).val
      ∧ (i a).val < win0_3.index t a * S64x4096.size a + S64x4096.size a := by
  show i ∈ ((View.whole main_v0_0).slice (win0_3.rect t)).set ↔ _
  rw [View.set_slice_whole, Rect.mem_set_unit]
  exact Iff.rfl

theorem mem_blk4 (t : Fin cfg0.N) (i : S8192x4096.Idx) :
    i ∈ ((cfg0.win 4).blk t).view.set ↔ ∀ a : Fin 2, win0_4.index t a * S64x4096.size a ≤ (i a).val
      ∧ (i a).val < win0_4.index t a * S64x4096.size a + S64x4096.size a := by
  show i ∈ ((View.whole main_v0_1).slice (win0_4.rect t)).set ↔ _
  rw [View.set_slice_whole, Rect.mem_set_unit]
  exact Iff.rfl

/-- Row `p` lies in the block of point `p / 64`: the blocks tile the normalised result. -/
theorem cover3 (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 128 := N_0
  have ht : (i 0).val / 64 < cfg0.N := by rw [hN]; omega
  obtain ⟨-, -, -, -, -, -, e6, e7, -⟩ := idx_facts ⟨(i 0).val / 64, ht⟩
  refine ⟨⟨(i 0).val / 64, ht⟩, flush0_3 _, ?_⟩
  rw [mem_blk3]
  intro a
  match a with
  | ⟨0, _⟩ =>
    show win0_3.index ⟨(i 0).val / 64, ht⟩ (0 : Fin 2) * 64 ≤ (i 0).val
      ∧ (i 0).val < win0_3.index ⟨(i 0).val / 64, ht⟩ (0 : Fin 2) * 64 + 64
    rw [e6]; show (i 0).val / 64 * 64 ≤ (i 0).val ∧ (i 0).val < (i 0).val / 64 * 64 + 64; omega
  | ⟨1, _⟩ =>
    show win0_3.index ⟨(i 0).val / 64, ht⟩ (1 : Fin 2) * 4096 ≤ (i 1).val
      ∧ (i 1).val < win0_3.index ⟨(i 0).val / 64, ht⟩ (1 : Fin 2) * 4096 + 4096
    rw [e7]; omega

/-- … and the summed result. -/
theorem cover4 (i : S8192x4096.Idx) :
    ∃ t : Fin cfg0.N, (cfg0.win 4).flush t = true ∧ i ∈ ((cfg0.win 4).blk t).view.set := by
  have h0 : (i 0).val < 8192 := (i 0).isLt
  have h1 : (i 1).val < 4096 := (i 1).isLt
  have hN : cfg0.N = 128 := N_0
  have ht : (i 0).val / 64 < cfg0.N := by rw [hN]; omega
  obtain ⟨-, -, -, -, -, -, -, -, e8, e9⟩ := idx_facts ⟨(i 0).val / 64, ht⟩
  refine ⟨⟨(i 0).val / 64, ht⟩, flush0_4 _, ?_⟩
  rw [mem_blk4]
  intro a
  match a with
  | ⟨0, _⟩ =>
    show win0_4.index ⟨(i 0).val / 64, ht⟩ (0 : Fin 2) * 64 ≤ (i 0).val
      ∧ (i 0).val < win0_4.index ⟨(i 0).val / 64, ht⟩ (0 : Fin 2) * 64 + 64
    rw [e8]; show (i 0).val / 64 * 64 ≤ (i 0).val ∧ (i 0).val < (i 0).val / 64 * 64 + 64; omega
  | ⟨1, _⟩ =>
    show win0_4.index ⟨(i 0).val / 64, ht⟩ (1 : Fin 2) * 4096 ≤ (i 1).val
      ∧ (i 1).val < win0_4.index ⟨(i 0).val / 64, ht⟩ (1 : Fin 2) * 4096 + 4096
    rw [e9]; omega

/-- After the run the normalised result holds the normalised array of the arguments. -/
theorem final3 (c : Dev nD) : (dats m 0 c).arrAt 3 cfg0.N = normedArr (xarr m c) (rarr m c) (garr m c) :=
  (dats m 0 c).arrAt_eq_of_cover 3 (normedArr (xarr m c) (rarr m c) (garr m c)) (fun t _ => flushed3_eq m c t) cover3

/-- After the run the summed result holds the summed array of the arguments. -/
theorem final4 (c : Dev nD) : (dats m 0 c).arrAt 4 cfg0.N = summedArr (xarr m c) (rarr m c) :=
  (dats m 0 c).arrAt_eq_of_cover 4 (summedArr (xarr m c) (rarr m c)) (fun t _ => flushed4_eq m c t) cover4

/-- The kernel's run, read: the two results at the normalised and the summed array of the arguments, the
    arguments unchanged. -/
theorem run : θ_run defs (onTc (τ := τ) (main (F := Ideal))) ⟨m, fun _ => 0, ρ⟩ fun r => ∀ c : Dev nD,
      r.2.mem ((c : Thread nD τ).loc main_v0_0) = normedArr (xarr m c) (rarr m c) (garr m c)
      ∧ r.2.mem ((c : Thread nD τ).loc main_v0_1) = summedArr (xarr m c) (rarr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Value.run_blocks m ρ)

end Cert.KernelRows

end
-- ==== Proof.lean ====
/-
  A tiled all-reduce + residual add + RMS normalisation against its whole-array form, over the extended reals.

  Both programs take the eight ranks' array x[8, 8192, 4096], a residual r[8192, 4096] and a weight g[4096] and
  return
      out[p, q] = (s[p, q] · rsqrt((Σ_h s[p, h]²) / 4096 + ε)) · g[q]      and      s[p, q] = (Σ_k x[k, p, q]) + r[p, q].
  The reference computes them over the whole arrays; the kernel walks 128 tiles of 64 rows, each tile holding its
  rows' full 4096 columns, so a row's mean of squares is taken inside one tile.  The two agree because a row of
  `s` and of `out` is a function of that row of `x` and `r` alone (Proof/RowNorm.lean): the reference's stages read
  entry by entry are that row arithmetic over the arrays (Proof/RefRows.lean), a tile's stored blocks are that row
  arithmetic over the tile (Proof/TileRows.lean), and a tile's rows are the arrays' rows 64·t … 64·t + 63, the 128
  tiles covering every row (Proof/KernelRows.lean).  The same float words (the zero the sums start from, 4096.0, ε)
  and the same operations stand on both sides, so no law of the extended reals beyond congruence is needed and the
  finiteness of the inputs is never used.  The idealized kernel is the kernel's own text read at the ideal
  instance (no rewrite was applied), so there is nothing to preserve.
-/
import proofs.«101307_j4492535792389_1_alg».proof.Defs
import proofs.«101307_j4492535792389_1_alg».proof.Proof.Gen.Kernel
import proofs.«101307_j4492535792389_1_alg».proof.Proof.Gen.Kernel.Skeleton
import proofs.«101307_j4492535792389_1_alg».proof.Proof.Gen.Kernel.Launch
import proofs.«101307_j4492535792389_1_alg».proof.Proof.Gen.Kernel.Points
import proofs.«101307_j4492535792389_1_alg».proof.Proof.Gen.Kernel.Frame
import proofs.«101307_j4492535792389_1_alg».proof.Proof.Gen.KernelIdeal
import proofs.«101307_j4492535792389_1_alg».proof.Proof.Gen.KernelIdeal.Skeleton
import proofs.«101307_j4492535792389_1_alg».proof.Proof.Gen.KernelIdeal.Launch
import proofs.«101307_j4492535792389_1_alg».proof.Proof.Gen.KernelIdeal.Points
import proofs.«101307_j4492535792389_1_alg».proof.Proof.Gen.KernelIdeal.Frame
import proofs.«101307_j4492535792389_1_alg».proof.Proof.Gen.ReferenceIdeal
import proofs.«101307_j4492535792389_1_alg».proof.Proof.Gen.Pre_finite_inputs
import proofs.«101307_j4492535792389_1_alg».proof.Proof.Gen.KernelIdeal.Value
import proofs.«101307_j4492535792389_1_alg».proof.Proof.Gen.ReferenceIdeal.Run
import proofs.«101307_j4492535792389_1_alg».proof.Proof.Gen.ReferenceIdeal.Read
import proofs.«101307_j4492535792389_1_alg».proof.Proof.RefRows
import proofs.«101307_j4492535792389_1_alg».proof.Proof.KernelRows
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the results dropped. -/
theorem frame_reference : Cert.frame_ReferenceIdeal := fun m ρ _ =>
  (θ_run Cert.ReferenceIdeal.defs _ _).mono (fun _ h c => (h c).2.2)
    (Cert.ReferenceIdeal.Value.run (F := Ideal) m ρ)

/-- Both programs end with the normalised array and the summed array of the arguments: the kernel's tiles cover
    the rows and each tile's rows are normalised as the array's are; the reference's stages are the same row
    arithmetic read entry by entry. -/
theorem algebraic : Cert.algebraic_KernelIdeal_ReferenceIdeal := by
  intro m ρ m' ρ' _ hagree
  refine ⟨fun c => Cert.RowNorm.normedArr (Cert.KernelRows.xarr m c) (Cert.KernelRows.rarr m c) (Cert.KernelRows.garr m c),
    fun c => Cert.RowNorm.summedArr (Cert.KernelRows.xarr m c) (Cert.KernelRows.rarr m c),
    Cert.KernelRows.run m ρ, ?_⟩
  refine (θ_run Cert.ReferenceIdeal.defs _ _).mono (fun _ h c => ?_)
    (Cert.ReferenceIdeal.Value.run (F := Ideal) m' ρ')
  refine ⟨(h c).1.trans ?_, (h c).2.1.trans ?_, (h c).2.2⟩
  · rw [Cert.ReferenceIdeal.Read.val_main_v14_eq, Cert.RefRows.normed_eq, (hagree c).1, (hagree c).2.1,
      (hagree c).2.2]
  · rw [Cert.ReferenceIdeal.Read.val_main_v1_eq, Cert.RefRows.summed_eq, (hagree c).1, (hagree c).2.1]

theorem claim : Cert.Claim := ⟨Cert.Kernel.Gen.facts, Cert.KernelIdeal.Gen.facts, Cert.ReferenceIdeal.Gen.facts,
  Cert.Pre_finite_inputs.Gen.facts, frame_kernel, frame_kernelIdeal, frame_reference, trivial, algebraic⟩

end Cert.Proof

end
